-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  main_v3
-- ==== Kernel.lean ====
abbrev S8x2048x512 : Shape := ⟨3, ![8, 2048, 512]⟩
abbrev S8x2048x1 : Shape := ⟨3, ![8, 2048, 1]⟩
abbrev S1x2048x512 : Shape := ⟨3, ![1, 2048, 512]⟩
abbrev S1x2048x1 : Shape := ⟨3, ![1, 2048, 1]⟩
abbrev S2048x512 : Shape := ⟨2, ![2048, 512]⟩
abbrev S2048 : Shape := ⟨1, ![2048]⟩
abbrev S2048x1 : Shape := ⟨2, ![2048, 1]⟩
abbrev S8x1x2048 : Shape := ⟨3, ![8, 1, 2048]⟩
abbrev S8x2048x2048 : Shape := ⟨3, ![8, 2048, 2048]⟩
abbrev S1x512x512 : Shape := ⟨3, ![1, 512, 512]⟩
abbrev S1x512x1 : Shape := ⟨3, ![1, 512, 1]⟩
abbrev S1x1x512 : Shape := ⟨3, ![1, 1, 512]⟩
abbrev S512x512 : Shape := ⟨2, ![512, 512]⟩
abbrev S512x1 : Shape := ⟨2, ![512, 1]⟩
abbrev S1x512 : Shape := ⟨2, ![1, 512]⟩

abbrev nBuf : Space → Nat
  | .hbm => 4
  | .vmem => 14
  | .smem => 0
  | _ => 0

abbrev bufTy : (tb : Table) → Fin (tcTables nBuf tb) → BufTy
  | .hbm, ⟨0, _⟩ => ⟨S8x2048x512, .f32⟩
  | .hbm, ⟨1, _⟩ => ⟨S8x2048x1, .f32⟩
  | .hbm, ⟨2, _⟩ => ⟨S8x1x2048, .f32⟩
  | .hbm, ⟨3, _⟩ => ⟨S8x2048x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x1, .f32⟩
  | .local _ .vmem, ⟨3, _⟩ => ⟨S1x2048x1, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x1, .f32⟩
  | .local _ .vmem, ⟨9, _⟩ => ⟨S1x512x1, .f32⟩
  | .local _ .vmem, ⟨10, _⟩ => ⟨S1x1x512, .f32⟩
  | .local _ .vmem, ⟨11, _⟩ => ⟨S1x1x512, .f32⟩
  | .local _ .vmem, ⟨12, _⟩ => ⟨S1x512x512, .f32⟩
  | .local _ .vmem, ⟨13, _⟩ => ⟨S1x512x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x512_S2048 : S2048x512.Reduces [1] S2048
  shapeCasts_S2048_S2048x1 : S2048.ShapeCasts S2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  transposes_S8x2048x1_S8x1x2048_0_2_1 : S8x2048x1.Transposes [0, 2, 1] S8x1x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  transposes_S512x512_p1_0_S512x512 : S512x512.Transposes [1, 0] S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S512x1_S512x512 : S512x1.Broadcasts S512x512
  broadcasts_S1x512_S512x512 : S1x512.Broadcasts S512x512
  shapeCasts_S512x512_S1x512x512 : S512x512.ShapeCasts S1x512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S8x2048x1.size a
  hwx0_1 : ∀ i : grid0.Coords, EltTy.bits .f32 = 32 ∨ (Rect.block (s := S8x2048x1) S1x2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x2048x512.size a
  hwx1_0 : ∀ i : grid1.Coords, EltTy.bits .f32 = 32 ∨ (Rect.block (s := S8x2048x512) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S8x2048x512.size a
  hwx1_1 : ∀ i : grid1.Coords, EltTy.bits .f32 = 32 ∨ (Rect.block (s := S8x2048x512) S1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1.size a ≤ S8x2048x1.size a
  hwx1_2 : ∀ i : grid1.Coords, EltTy.bits .f32 = 32 ∨ (Rect.block (s := S8x2048x1) S1x512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S8x1x2048.size a
  hwx1_3 : ∀ i : grid1.Coords, EltTy.bits .f32 = 32 ∨ (Rect.block (s := S8x1x2048) S1x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x512.size a ≤ S8x2048x2048.size a
  hwx1_4 : ∀ i : grid1.Coords, EltTy.bits .f32 = 32 ∨ (Rect.block (s := S8x2048x2048) S1x512x512.size (cc1_transform_4 i) (hinb1_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x512 : Shape := ⟨3, ![8, 2048, 512]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S_, .f32⟩
  | .hbm, ⟨3, _⟩ => ⟨S8x2048, .f32⟩
  | .hbm, ⟨4, _⟩ => ⟨S8x2048, .f32⟩
  | .hbm, ⟨5, _⟩ => ⟨S8x2048x2048, .f32⟩
  | .hbm, ⟨6, _⟩ => ⟨S8x2048x1, .f32⟩
  | .hbm, ⟨7, _⟩ => ⟨S8x1x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S8x2048x512_S8x2048_d2 : S8x2048x512.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  dot_S8x2048x512_S8x2048x512_S8x2048x2048_2_2_1_1_0_0_wf : DotDims.WF S8x2048x512 S8x2048x512 S8x2048x2048 [2] [2] [1] [1] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf

class Facts : Prop extends Facts₀ where

variable [Facts]
-- ==== Proof.KernelBits.Region0.lean ====
/-
  Region 0 (the row-norm kernel) at a parameter `V`, the core's buffer contents when the region is entered,
  at any float instance. One grid point per batch row `b`: the body loads the whole [1, 2048, 512] block of the
  input, squares it, sums each row over its 512 lanes, takes the square root and stores the [1, 2048, 1] column.
  Here: what the output window's staging buffer holds after the body as a function of the input block, the
  body's triple, the pipeline's proof data and the body obligation at every grid point.
-/
import proofs.«101115_j23201413333423_1_alg».proof.Proof.Gen.Kernel.Launch
import proofs.«101115_j23201413333423_1_alg».proof.Proof.Gen.Kernel.Skeleton
import proofs.«101115_j23201413333423_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block as rectangles. -/
abbrev r0_in : Rect S1x2048x512 := Rect.unit (s := S1x2048x512) ![0, 0, 0] S1x2048x512.size inb_S1x2048x512_S1x2048x512_0_0_0
abbrev r0_out : Rect S1x2048x1 := Rect.unit (s := S1x2048x1) ![0, 0, 0] S1x2048x1.size inb_S1x2048x1_S1x2048x1_0_0_0

/-- The output window's staging buffer after the body, from the input block: the one store, of the column of row norms. -/
def out0_1 (x0 : Vec F S1x2048x512 .f32) : Vec F S1x2048x1 .f32 :=
  View.canon [⟨r0_out, k0_pay1 (View.ld x0 r0_in)⟩]

/-- The one store covers the buffer. -/
theorem cover0_1 (p0 : Vec F S1x2048x1 .f32) (y : S1x2048x1.Idx) :
    ∃ pc ∈ ([⟨r0_out, p0⟩] : List (View.Piece (Elt F) S1x2048x1 .f32)), y ∈ pc.1.set :=
  View.cover_of_tiled [⟨r0_out, p0⟩] S1x2048x1.size (by rfl) y

set_option maxHeartbeats 1000000 in
/-- The body on whole staging memrefs, the input's at contents `x0` and the output's at anything, runs to the
    continuation with the input's as it was and the output's at `out0_1 x0`. -/
theorem sound_kernel0 (c : Dev nD) (E : Set ℕ) (i : grid0.Coords) (arg1 : Memref sig .tc .vmem S1x2048x512 .f32) (harg1 : arg1.IsWhole)
    (arg2 : Memref sig .tc .vmem S1x2048x1 .f32) (harg2 : arg2.IsWhole)
    (x0 : Vec F S1x2048x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__norm_kernel i arg1 harg1 arg2 harg2) K := by
  simp only [cc0__norm_kernel_eq_skeleton]; unfold cc0__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- Pipeline 0's proof data on core `c`: the arrays as the region finds them; after the body at point `t` the input's
    buffer at its block and the output's at `out0_1` of it; the invariant untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelBits.Region1.lean ====
/-
  Region 1 (the cosine-similarity kernel) at a parameter `V`, the core's buffer contents when the region is
  entered, at any float instance. One grid point per (batch b, row tile qi, column tile kj): the body loads the
  [1, 512, 512] row tile and column tile of the input, the [1, 512, 1] column of row norms for the row tile and
  the [1, 1, 512] row of norms for the column tile, multiplies the row tile by the transposed column tile,
  divides by the outer product of the norms, clamps from below and stores the [1, 512, 512] output tile.
  The two input tiles are windows on ONE array, so the proof data hold that array at the two halves of the full share.
  Here: what the output window's staging buffer holds after the body as a function of the four input blocks, the
  body's triple, the pipeline's proof data and the body obligation at every grid point.
-/
import proofs.«101115_j23201413333423_1_alg».proof.Proof.Gen.Kernel.Launch
import proofs.«101115_j23201413333423_1_alg».proof.Proof.Gen.Kernel.Skeleton
import proofs.«101115_j23201413333423_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (an unfetched
    point has the block index of the point before), for any proof data whose array is `V`'s and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole blocks as rectangles: a [1, 512, 512] tile, the [1, 512, 1] column, the [1, 1, 512] row. -/
abbrev r1_t : Rect S1x512x512 := Rect.unit (s := S1x512x512) ![0, 0, 0] S1x512x512.size inb_S1x512x512_S1x512x512_0_0_0
abbrev r1_c : Rect S1x512x1 := Rect.unit (s := S1x512x1) ![0, 0, 0] S1x512x1.size inb_S1x512x1_S1x512x1_0_0_0
abbrev r1_r : Rect S1x1x512 := Rect.unit (s := S1x1x512) ![0, 0, 0] S1x1x512.size inb_S1x1x512_S1x1x512_0_0_0

/-- The output window's staging buffer after the body, from the four input blocks: the one store, of the clamped
    similarity tile. -/
def out1_4 (x0 x1 : Vec F S1x512x512 .f32) (x2 : Vec F S1x512x1 .f32) (x3 : Vec F S1x1x512 .f32) : Vec F S1x512x512 .f32 :=
  View.canon [⟨r1_t, k1_pay1 (View.ld x0 r1_t) (View.ld x1 r1_t) (View.ld x2 r1_c) (View.ld x3 r1_r)⟩]

/-- The one store covers the buffer. -/
theorem cover1_4 (p0 : Vec F S1x512x512 .f32) (y : S1x512x512.Idx) :
    ∃ pc ∈ ([⟨r1_t, p0⟩] : List (View.Piece (Elt F) S1x512x512 .f32)), y ∈ pc.1.set :=
  View.cover_of_tiled [⟨r1_t, p0⟩] S1x512x512.size (by rfl) y

set_option maxHeartbeats 1000000 in
/-- The body on whole staging memrefs, the inputs' at contents `x0 … x3` and the output's at anything, runs to the
    continuation with the inputs' as they were and the output's at `out1_4 x0 x1 x2 x3`. -/
theorem sound_kernel1 (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S1x512x1 .f32) (harg5 : arg5.IsWhole) (arg6 : Memref sig .tc .vmem S1x1x512 .f32) (harg6 : arg6.IsWhole)
    (arg7 : Memref sig .tc .vmem S1x512x512 .f32) (harg7 : arg7.IsWhole)
    (x0 x1 : Vec F S1x512x512 .f32) (x2 : Vec F S1x512x1 .f32) (x3 : Vec F S1x1x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out1_4 x0 x1 x2 x3)) -∗ K ⟨⟩))
      ⊢ wp frame (wpE (defs₀ (F := F)) Variants.none c none) E (cc1__cos_kernel i arg3 harg3 arg4 harg4 arg5 harg5 arg6 harg6 arg7 harg7) K := by
  simp only [cc1__cos_kernel_eq_skeleton]; unfold cc1__cos_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- Pipeline 1's proof data on core `c`: the arrays as the region finds them; after the body at point `t` each
    input's buffer at its block and the output's at `out1_4` of them; the invariant untouched; nothing owed; the
    input array read through two windows held at the two halves of the full share, the others at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem q1_0 (c : Dev nD) : (dat1 V c).q 0 = fullShare.left := rfl
theorem q1_1 (c : Dev nD) : (dat1 V c).q 1 = fullShare.right := rfl
theorem q1_2 (c : Dev nD) : (dat1 V c).q 2 = fullShare := rfl
theorem q1_3 (c : Dev nD) : (dat1 V c).q 3 = fullShare := rfl
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelBits.Shared.lean ====
/-
  Region 1's windows 0 and 1 are both the whole input array, so the pipeline holds that array at the two halves
  of the full share, one per window. Here: a core's unscoped buffers, each whole at the full share, ARE region 1's
  arrays at those shares (the input array's points-to split in two along the share) beside the buffers that are no
  window's array; and back, the two halves — which hold the same contents — joined again at the region's exit.
-/
import proofs.«101115_j23201413333423_1_alg».proof.Proof.Gen.Kernel.Launch
import Idealize.ShloMosaic.Lib.Pipeline.FrameBody
import Idealize.ShloMosaic.Lib.Pipeline.RegionsLoop

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel.Gen

variable {F : FTy → Type} [FloatOps F]

local notation "𝕄" => MT nD τ sig Unit (Elt F) ℕ (UR sig nD τ) ℕ

/-- The distinct buffers behind region 1's five windows: four, the input array counted once. -/
private theorem arrRef_image1 : Finset.univ.image (Pipeline.arrRef spec1) = {main_arg0, main_v0, main_v1, main_v2} := by decide

/-- The buffers behind region 1's arrays, each whole at the full share, one by one. -/
private theorem arrBufs1_eq (c : Dev nD) (V : (b : Ref sig .tc) → Buf (Elt F) ((c : Thread nD τ).loc b)) :
    (Pipeline.arrBufs spec1 c V : sProp 𝕄)
      = iprop(((c : Thread nD τ).loc main_arg0 ↦{fullShare} V main_arg0) ∗ ((c : Thread nD τ).loc main_v0 ↦{fullShare} V main_v0)
          ∗ ((c : Thread nD τ).loc main_v1 ↦{fullShare} V main_v1) ∗ ((c : Thread nD τ).loc main_v2 ↦{fullShare} V main_v2)) := by
  unfold Pipeline.arrBufs
  rw [arrRef_image1, bigSep_insert (by decide), bigSep_insert (by decide), bigSep_insert (by decide), bigSep_singleton]
  rfl

/-- Region 1's arrays window by window: each a whole buffer, the input array twice, once at each half share; the
    two intermediate arrays and the output at the full share. -/
private theorem arrays1_eq {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (A : (w : Fin cfg1.W) → Buf (Elt F) ((cfg1.win w).arr.view.loc (c : Thread nD τ))) :
    (dat.arrays A : sProp 𝕄)
      = iprop(((c : Thread nD τ).loc main_arg0 ↦{fullShare.left} A 0) ∗ ((c : Thread nD τ).loc main_arg0 ↦{fullShare.right} A 1)
          ∗ ((c : Thread nD τ).loc main_v0 ↦{fullShare} A 2) ∗ ((c : Thread nD τ).loc main_v1 ↦{fullShare} A 3)
          ∗ ((c : Thread nD τ).loc main_v2 ↦{fullShare} A 4)) := by
  unfold Dat.arrays
  rw [bigSep_W1]
  simp only [Dat.share, View.set_whole, hq0, hq1, hq2, hq3]
  rfl

/-- The same with every window's contents read off a valuation of the core's buffers: the two windows on the input
    array then hold the same contents. -/
private theorem arrays1_eq_of {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (dat.arrays A : sProp 𝕄)
      = iprop(((c : Thread nD τ).loc main_arg0 ↦{fullShare.left} V main_arg0) ∗ ((c : Thread nD τ).loc main_arg0 ↦{fullShare.right} V main_arg0)
          ∗ ((c : Thread nD τ).loc main_v0 ↦{fullShare} V main_v0) ∗ ((c : Thread nD τ).loc main_v1 ↦{fullShare} V main_v1)
          ∗ ((c : Thread nD τ).loc main_v2 ↦{fullShare} V main_v2)) := by
  rw [arrays1_eq dat hq0 hq1 hq2 hq3 A, hA 0, hA 1, hA 2, hA 3, hA 4]

/-- A whole buffer at the full share is the same buffer, at the same contents, at the two half shares. -/
private theorem full_eq_halves {ℓ : Loc nD τ sig} (f : Buf (Elt F) ℓ) :
    (ℓ ↦{fullShare} f : sProp 𝕄) = iprop((ℓ ↦{fullShare.left} f) ∗ ℓ ↦{fullShare.right} f) :=
  Entails.antisymm (pointsTo_share (PosShare.mem_left_op_right fullShare)).1 (pointsTo_share (PosShare.mem_left_op_right fullShare)).2

/-- ENTRY: the core's unscoped buffers at contents `V` are region 1's arrays at the proof data's entry contents, the
    shared input array at its two half shares, and the unscoped buffers that are no window's array. -/
theorem arrays1_of_unscopedBufs {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  -- the unscoped buffers are the four buffers behind the arrays and the rest; the rest is kept as it is
  rw [Pipeline.unscopedBufs_split₀ cfgs 1 winFacts₀1.arr_unscoped c V]
  refine sep_mono ?_ .rfl
  -- the entry contents of window w are V at its array; the input array's full share splits into its halves
  rw [arrays1_eq_of dat hq0 hq1 hq2 hq3 V (dat.arrAt · 0) hA]
  show (Pipeline.arrBufs spec1 c V : sProp 𝕄) ⊢ _
  rw [arrBufs1_eq, full_eq_halves (V main_arg0)]
  exact Idealize.SL.BI.sep_assoc

/-- EXIT: region 1's arrays at contents `A`, the two windows on the input array holding the same contents, and the
    unscoped buffers that are no window's array at `V` are the core's unscoped buffers at `V'`, which is `A` at the arrays
    and `V` elsewhere. -/
theorem unscopedBufs_of_arrays1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  rw [Pipeline.unscopedBufs_split₀ cfgs 1 winFacts₀1.arr_unscoped c V']
  -- off the arrays V' is V
  have hR : (Pipeline.unscopedRest spec1 c V : sProp 𝕄) = Pipeline.unscopedRest spec1 c V' := by
    unfold Pipeline.unscopedRest
    exact bigSep_congr fun b hb => by rw [hrest b (Finset.mem_sdiff.mp hb).2]
  rw [hR]
  refine sep_mono ?_ .rfl
  -- both windows on the input array hold V' there, so the two halves join into the full share
  rw [arrays1_eq_of dat hq0 hq1 hq2 hq3 V' A hA]
  show _ ⊢ (Pipeline.arrBufs spec1 c V' : sProp 𝕄)
  rw [arrBufs1_eq, full_eq_halves (V' main_arg0)]
  exact Idealize.SL.BI.sep_assoc'

end Cert.Kernel.Hand

end
-- ==== Proof.KernelBits.Run.lean ====
/-
  The run of the kernel program at any float instance: region 0 (the row norms), the host transpose of the column of
  norms into a row, region 1 (the similarity tiles). The buffer contents at each boundary are a fold from the launch
  memory: a region changes only its output array, to what its write-backs leave; the host stretch writes only the
  transposed norms. Every weakly fair execution terminates, and the final memory holds every unscoped buffer at the
  last boundary's contents: the input as launched and the result array at what region 1's write-backs leave.
-/
import proofs.«101115_j23201413333423_1_alg».proof.Proof.KernelBits.Region0
import proofs.«101115_j23201413333423_1_alg».proof.Proof.KernelBits.Region1
import proofs.«101115_j23201413333423_1_alg».proof.Proof.KernelBits.Shared
import proofs.«101115_j23201413333423_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry contents. -/
abbrev W0 : Dev nD → Valuation τ sig (Elt F) := fun c b => m (c, b)
/-- The same read at the TensorCore's references. -/
abbrev E0 : (c : Dev nD) → (b : Ref sig .tc) → Buf (Elt F) ((c : Thread nD τ).loc b) := fun c b => W0 m c b
/-- At region 0's exit: the array of norms at what the write-backs leave, every other buffer as entered. -/
def W1 (c : Dev nD) : Valuation τ sig (Elt F) :=
  Function.update (W0 m c) (Proc.devRef .tc main_v0) ((dat0 (E0 m) c).arrAt 1 cfg0.N)
abbrev X1 : (c : Dev nD) → (b : Ref sig .tc) → Buf (Elt F) ((c : Thread nD τ).loc b) := fun c b => W1 m c b
/-- After the host transpose: region 1's entry contents. -/
abbrev W2 : Dev nD → Valuation τ sig (Elt F) := fun c => StableHlo.after hostOps1 (W1 m c)
abbrev E1 : (c : Dev nD) → (b : Ref sig .tc) → Buf (Elt F) ((c : Thread nD τ).loc b) := fun c b => W2 m c b
/-- At region 1's exit: the result array at what the write-backs leave, every other buffer as entered. -/
def W3 (c : Dev nD) : Valuation τ sig (Elt F) :=
  Function.update (W2 m c) (Proc.devRef .tc main_v2) ((dat1 (E1 m) c).arrAt 4 cfg1.N)
abbrev X3 : (c : Dev nD) → (b : Ref sig .tc) → Buf (Elt F) ((c : Thread nD τ).loc b) := fun c b => W3 m c b

theorem W1_main_v0 (c : Dev nD) : W1 m c (Proc.devRef .tc main_v0) = (dat0 (E0 m) c).arrAt 1 cfg0.N := by
  unfold W1; exact Function.update_self ..
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb) ..
theorem W3_main_v2 (c : Dev nD) : W3 m c (Proc.devRef .tc main_v2) = (dat1 (E1 m) c).arrAt 4 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..
/-- The host stretch writes only the row of norms. -/
theorem W2_of_ne (c : Dev nD) (b : Ref sig .tc) (hb : b ∉ hostOps1_W) : W2 m c (Proc.devRef .tc b) = W1 m c (Proc.devRef .tc b) :=
  StableHlo.after_of_writes_sub hostOps1 _ hostOps1_writes hb

/-- The input array reaches the end as launched. -/
theorem W3_main_arg0 (c : Dev nD) : W3 m c (Proc.devRef .tc main_arg0) = m ((c : Thread nD τ).loc main_arg0) :=
  (W3_of_ne m c main_arg0 (by decide)).trans <| (W2_of_ne m c main_arg0 (by decide)).trans <| (W1_of_ne m c main_arg0 (by decide)).trans rfl
/-- Region 1 finds the input array as launched and the column of norms as region 0 left it. -/
theorem E1_main_arg0 (c : Dev nD) : E1 m c main_arg0 = m ((c : Thread nD τ).loc main_arg0) :=
  (W2_of_ne m c main_arg0 (by decide)).trans <| (W1_of_ne m c main_arg0 (by decide)).trans rfl
theorem E1_main_v0 (c : Dev nD) : E1 m c main_v0 = (dat0 (E0 m) c).arrAt 1 cfg0.N :=
  (W2_of_ne m c main_v0 (by decide)).trans (W1_main_v0 m c)

/-- At region 0's exit each of its arrays holds what the pipeline leaves, and every other buffer what it held at entry. -/
theorem hF0 (c : Dev nD) (w : Fin cfg0.W) : (dat0 (E0 m) c).arrAt w cfg0.N = X1 m c (Pipeline.arrRef spec0 w) :=
  match w with
  | ⟨0, _⟩ => ((dat0 (E0 m) c).arrAt_in 0 rfl _).trans ((A_eq0 (E0 m) c 0).trans (W1_of_ne m c main_arg0 (by decide)).symm)
  | ⟨1, _⟩ => (W1_main_v0 m c).symm
theorem hrest0 (c : Dev nD) : ∀ b, b ∉ Finset.univ.image (Pipeline.arrRef spec0) → X1 m c b = E0 m c b :=
  fun b hb => W1_of_ne m c b fun e => hb (Finset.mem_image.mpr ⟨1, Finset.mem_univ _, e.symm⟩)
/-- The same at region 1's exit. -/
theorem hF1 (c : Dev nD) (w : Fin cfg1.W) : (dat1 (E1 m) c).arrAt w cfg1.N = X3 m c (Pipeline.arrRef spec1 w) :=
  match w with
  | ⟨0, _⟩ => ((dat1 (E1 m) c).arrAt_in 0 rfl _).trans ((A_eq1 (E1 m) c 0).trans (W3_of_ne m c main_arg0 (by decide)).symm)
  | ⟨1, _⟩ => ((dat1 (E1 m) c).arrAt_in 1 rfl _).trans ((A_eq1 (E1 m) c 1).trans (W3_of_ne m c main_arg0 (by decide)).symm)
  | ⟨2, _⟩ => ((dat1 (E1 m) c).arrAt_in 2 rfl _).trans ((A_eq1 (E1 m) c 2).trans (W3_of_ne m c main_v0 (by decide)).symm)
  | ⟨3, _⟩ => ((dat1 (E1 m) c).arrAt_in 3 rfl _).trans ((A_eq1 (E1 m) c 3).trans (W3_of_ne m c main_v1 (by decide)).symm)
  | ⟨4, _⟩ => (W3_main_v2 m c).symm
theorem hrest1 (c : Dev nD) : ∀ b, b ∉ Finset.univ.image (Pipeline.arrRef spec1) → X3 m c b = E1 m c b :=
  fun b hb => W3_of_ne m c b fun e => hb (Finset.mem_image.mpr ⟨4, Finset.mem_univ _, e.symm⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its two windows on
    the input array take that array at the two halves of the full share and give them back joined. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := arrays1_of_unscopedBufs (pdats m 1 c) rfl rfl rfl rfl (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (pdats m 1 c) rfl rfl rfl rfl (E1 m c) (X3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 3 segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_main_arg0 m c)) (run_all m ρ)

/-- The run with the result array named: it ends at what region 1's write-backs leave, the input as launched. -/
theorem run_value : θ_run defs (onTc (τ := τ) (main (F := F))) ⟨m, fun _ => 0, ρ⟩ (fun r => ∀ c : Dev nD,
      r.2.mem ((c.tc : Thread nD τ).loc main_v2) = (dat1 (E1 m) c).arrAt 4 cfg1.N
      ∧ r.2.mem ((c.tc : Thread nD τ).loc main_arg0) = m ((c.tc : Thread nD τ).loc main_arg0)) :=
  (θ_run defs _ _).mono (fun r h c => ⟨(h c _ (mem_uc main_v2 (by decide))).trans (W3_main_v2 m c),
    (h c _ (mem_uc main_arg0 (by decide))).trans (W3_main_arg0 m c)⟩) (run_all m ρ)

end Cert.Kernel.Hand

end
-- ==== Proof.Region0.lean ====
/-
  Region 0 (the row-norm kernel) at a parameter `V`, the core's buffer contents when the region is entered,
  at any float instance. One grid point per batch row `b`: the body loads the whole [1, 2048, 512] block of the
  input, squares it, sums each row over its 512 lanes, takes the square root and stores the [1, 2048, 1] column.
  Here: what the output window's staging buffer holds after the body as a function of the input block, the
  body's triple, the pipeline's proof data and the body obligation at every grid point.
-/
import proofs.«101115_j23201413333423_1_alg».proof.Proof.Gen.KernelIdeal.Launch
import proofs.«101115_j23201413333423_1_alg».proof.Proof.Gen.KernelIdeal.Skeleton
import proofs.«101115_j23201413333423_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block as rectangles. -/
abbrev r0_in : Rect S1x2048x512 := Rect.unit (s := S1x2048x512) ![0, 0, 0] S1x2048x512.size inb_S1x2048x512_S1x2048x512_0_0_0
abbrev r0_out : Rect S1x2048x1 := Rect.unit (s := S1x2048x1) ![0, 0, 0] S1x2048x1.size inb_S1x2048x1_S1x2048x1_0_0_0

/-- The output window's staging buffer after the body, from the input block: the one store, of the column of row norms. -/
def out0_1 (x0 : Vec F S1x2048x512 .f32) : Vec F S1x2048x1 .f32 :=
  View.canon [⟨r0_out, k0_pay1 (View.ld x0 r0_in)⟩]

/-- The one store covers the buffer. -/
theorem cover0_1 (p0 : Vec F S1x2048x1 .f32) (y : S1x2048x1.Idx) :
    ∃ pc ∈ ([⟨r0_out, p0⟩] : List (View.Piece (Elt F) S1x2048x1 .f32)), y ∈ pc.1.set :=
  View.cover_of_tiled [⟨r0_out, p0⟩] S1x2048x1.size (by rfl) y

set_option maxHeartbeats 1000000 in
/-- The body on whole staging memrefs, the input's at contents `x0` and the output's at anything, runs to the
    continuation with the input's as it was and the output's at `out0_1 x0`. -/
theorem sound_kernel0 (c : Dev nD) (E : Set ℕ) (i : grid0.Coords) (arg1 : Memref sig .tc .vmem S1x2048x512 .f32) (harg1 : arg1.IsWhole)
    (arg2 : Memref sig .tc .vmem S1x2048x1 .f32) (harg2 : arg2.IsWhole)
    (x0 : Vec F S1x2048x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__norm_kernel i arg1 harg1 arg2 harg2) K := by
  simp only [cc0__norm_kernel_eq_skeleton]; unfold cc0__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- Pipeline 0's proof data on core `c`: the arrays as the region finds them; after the body at point `t` the input's
    buffer at its block and the output's at `out0_1` of it; the invariant untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  Region 1 (the cosine-similarity kernel) at a parameter `V`, the core's buffer contents when the region is
  entered, at any float instance. One grid point per (batch b, row tile qi, column tile kj): the body loads the
  [1, 512, 512] row tile and column tile of the input, the [1, 512, 1] column of row norms for the row tile and
  the [1, 1, 512] row of norms for the column tile, multiplies the row tile by the transposed column tile,
  divides by the outer product of the norms, clamps from below and stores the [1, 512, 512] output tile.
  The two input tiles are windows on ONE array, so the proof data hold that array at the two halves of the full share.
  Here: what the output window's staging buffer holds after the body as a function of the four input blocks, the
  body's triple, the pipeline's proof data and the body obligation at every grid point.
-/
import proofs.«101115_j23201413333423_1_alg».proof.Proof.Gen.KernelIdeal.Launch
import proofs.«101115_j23201413333423_1_alg».proof.Proof.Gen.KernelIdeal.Skeleton
import proofs.«101115_j23201413333423_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (an unfetched
    point has the block index of the point before), for any proof data whose array is `V`'s and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole blocks as rectangles: a [1, 512, 512] tile, the [1, 512, 1] column, the [1, 1, 512] row. -/
abbrev r1_t : Rect S1x512x512 := Rect.unit (s := S1x512x512) ![0, 0, 0] S1x512x512.size inb_S1x512x512_S1x512x512_0_0_0
abbrev r1_c : Rect S1x512x1 := Rect.unit (s := S1x512x1) ![0, 0, 0] S1x512x1.size inb_S1x512x1_S1x512x1_0_0_0
abbrev r1_r : Rect S1x1x512 := Rect.unit (s := S1x1x512) ![0, 0, 0] S1x1x512.size inb_S1x1x512_S1x1x512_0_0_0

/-- The output window's staging buffer after the body, from the four input blocks: the one store, of the clamped
    similarity tile. -/
def out1_4 (x0 x1 : Vec F S1x512x512 .f32) (x2 : Vec F S1x512x1 .f32) (x3 : Vec F S1x1x512 .f32) : Vec F S1x512x512 .f32 :=
  View.canon [⟨r1_t, k1_pay1 (View.ld x0 r1_t) (View.ld x1 r1_t) (View.ld x2 r1_c) (View.ld x3 r1_r)⟩]

/-- The one store covers the buffer. -/
theorem cover1_4 (p0 : Vec F S1x512x512 .f32) (y : S1x512x512.Idx) :
    ∃ pc ∈ ([⟨r1_t, p0⟩] : List (View.Piece (Elt F) S1x512x512 .f32)), y ∈ pc.1.set :=
  View.cover_of_tiled [⟨r1_t, p0⟩] S1x512x512.size (by rfl) y

set_option maxHeartbeats 1000000 in
/-- The body on whole staging memrefs, the inputs' at contents `x0 … x3` and the output's at anything, runs to the
    continuation with the inputs' as they were and the output's at `out1_4 x0 x1 x2 x3`. -/
theorem sound_kernel1 (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S1x512x1 .f32) (harg5 : arg5.IsWhole) (arg6 : Memref sig .tc .vmem S1x1x512 .f32) (harg6 : arg6.IsWhole)
    (arg7 : Memref sig .tc .vmem S1x512x512 .f32) (harg7 : arg7.IsWhole)
    (x0 x1 : Vec F S1x512x512 .f32) (x2 : Vec F S1x512x1 .f32) (x3 : Vec F S1x1x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out1_4 x0 x1 x2 x3)) -∗ K ⟨⟩))
      ⊢ wp frame (wpE (defs₀ (F := F)) Variants.none c none) E (cc1__cos_kernel i arg3 harg3 arg4 harg4 arg5 harg5 arg6 harg6 arg7 harg7) K := by
  simp only [cc1__cos_kernel_eq_skeleton]; unfold cc1__cos_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- Pipeline 1's proof data on core `c`: the arrays as the region finds them; after the body at point `t` each
    input's buffer at its block and the output's at `out1_4` of them; the invariant untouched; nothing owed; the
    input array read through two windows held at the two halves of the full share, the others at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem q1_0 (c : Dev nD) : (dat1 V c).q 0 = fullShare.left := rfl
theorem q1_1 (c : Dev nD) : (dat1 V c).q 1 = fullShare.right := rfl
theorem q1_2 (c : Dev nD) : (dat1 V c).q 2 = fullShare := rfl
theorem q1_3 (c : Dev nD) : (dat1 V c).q 3 = fullShare := rfl
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Shared.lean ====
/-
  Region 1's windows 0 and 1 are both the whole input array, so the pipeline holds that array at the two halves
  of the full share, one per window. Here: a core's unscoped buffers, each whole at the full share, ARE region 1's
  arrays at those shares (the input array's points-to split in two along the share) beside the buffers that are no
  window's array; and back, the two halves — which hold the same contents — joined again at the region's exit.
-/
import proofs.«101115_j23201413333423_1_alg».proof.Proof.Gen.KernelIdeal.Launch
import Idealize.ShloMosaic.Lib.Pipeline.FrameBody
import Idealize.ShloMosaic.Lib.Pipeline.RegionsLoop

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal.Gen

variable {F : FTy → Type} [FloatOps F]

local notation "𝕄" => MT nD τ sig Unit (Elt F) ℕ (UR sig nD τ) ℕ

/-- The distinct buffers behind region 1's five windows: four, the input array counted once. -/
private theorem arrRef_image1 : Finset.univ.image (Pipeline.arrRef spec1) = {main_arg0, main_v0, main_v1, main_v2} := by decide

/-- The buffers behind region 1's arrays, each whole at the full share, one by one. -/
private theorem arrBufs1_eq (c : Dev nD) (V : (b : Ref sig .tc) → Buf (Elt F) ((c : Thread nD τ).loc b)) :
    (Pipeline.arrBufs spec1 c V : sProp 𝕄)
      = iprop(((c : Thread nD τ).loc main_arg0 ↦{fullShare} V main_arg0) ∗ ((c : Thread nD τ).loc main_v0 ↦{fullShare} V main_v0)
          ∗ ((c : Thread nD τ).loc main_v1 ↦{fullShare} V main_v1) ∗ ((c : Thread nD τ).loc main_v2 ↦{fullShare} V main_v2)) := by
  unfold Pipeline.arrBufs
  rw [arrRef_image1, bigSep_insert (by decide), bigSep_insert (by decide), bigSep_insert (by decide), bigSep_singleton]
  rfl

/-- Region 1's arrays window by window: each a whole buffer, the input array twice, once at each half share; the
    two intermediate arrays and the output at the full share. -/
private theorem arrays1_eq {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (A : (w : Fin cfg1.W) → Buf (Elt F) ((cfg1.win w).arr.view.loc (c : Thread nD τ))) :
    (dat.arrays A : sProp 𝕄)
      = iprop(((c : Thread nD τ).loc main_arg0 ↦{fullShare.left} A 0) ∗ ((c : Thread nD τ).loc main_arg0 ↦{fullShare.right} A 1)
          ∗ ((c : Thread nD τ).loc main_v0 ↦{fullShare} A 2) ∗ ((c : Thread nD τ).loc main_v1 ↦{fullShare} A 3)
          ∗ ((c : Thread nD τ).loc main_v2 ↦{fullShare} A 4)) := by
  unfold Dat.arrays
  rw [bigSep_W1]
  simp only [Dat.share, View.set_whole, hq0, hq1, hq2, hq3]
  rfl

/-- The same with every window's contents read off a valuation of the core's buffers: the two windows on the input
    array then hold the same contents. -/
private theorem arrays1_eq_of {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (dat.arrays A : sProp 𝕄)
      = iprop(((c : Thread nD τ).loc main_arg0 ↦{fullShare.left} V main_arg0) ∗ ((c : Thread nD τ).loc main_arg0 ↦{fullShare.right} V main_arg0)
          ∗ ((c : Thread nD τ).loc main_v0 ↦{fullShare} V main_v0) ∗ ((c : Thread nD τ).loc main_v1 ↦{fullShare} V main_v1)
          ∗ ((c : Thread nD τ).loc main_v2 ↦{fullShare} V main_v2)) := by
  rw [arrays1_eq dat hq0 hq1 hq2 hq3 A, hA 0, hA 1, hA 2, hA 3, hA 4]

/-- A whole buffer at the full share is the same buffer, at the same contents, at the two half shares. -/
private theorem full_eq_halves {ℓ : Loc nD τ sig} (f : Buf (Elt F) ℓ) :
    (ℓ ↦{fullShare} f : sProp 𝕄) = iprop((ℓ ↦{fullShare.left} f) ∗ ℓ ↦{fullShare.right} f) :=
  Entails.antisymm (pointsTo_share (PosShare.mem_left_op_right fullShare)).1 (pointsTo_share (PosShare.mem_left_op_right fullShare)).2

/-- ENTRY: the core's unscoped buffers at contents `V` are region 1's arrays at the proof data's entry contents, the
    shared input array at its two half shares, and the unscoped buffers that are no window's array. -/
theorem arrays1_of_unscopedBufs {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  -- the unscoped buffers are the four buffers behind the arrays and the rest; the rest is kept as it is
  rw [Pipeline.unscopedBufs_split₀ cfgs 1 winFacts₀1.arr_unscoped c V]
  refine sep_mono ?_ .rfl
  -- the entry contents of window w are V at its array; the input array's full share splits into its halves
  rw [arrays1_eq_of dat hq0 hq1 hq2 hq3 V (dat.arrAt · 0) hA]
  show (Pipeline.arrBufs spec1 c V : sProp 𝕄) ⊢ _
  rw [arrBufs1_eq, full_eq_halves (V main_arg0)]
  exact Idealize.SL.BI.sep_assoc

/-- EXIT: region 1's arrays at contents `A`, the two windows on the input array holding the same contents, and the
    unscoped buffers that are no window's array at `V` are the core's unscoped buffers at `V'`, which is `A` at the arrays
    and `V` elsewhere. -/
theorem unscopedBufs_of_arrays1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  rw [Pipeline.unscopedBufs_split₀ cfgs 1 winFacts₀1.arr_unscoped c V']
  -- off the arrays V' is V
  have hR : (Pipeline.unscopedRest spec1 c V : sProp 𝕄) = Pipeline.unscopedRest spec1 c V' := by
    unfold Pipeline.unscopedRest
    exact bigSep_congr fun b hb => by rw [hrest b (Finset.mem_sdiff.mp hb).2]
  rw [hR]
  refine sep_mono ?_ .rfl
  -- both windows on the input array hold V' there, so the two halves join into the full share
  rw [arrays1_eq_of dat hq0 hq1 hq2 hq3 V' A hA]
  show _ ⊢ (Pipeline.arrBufs spec1 c V' : sProp 𝕄)
  rw [arrBufs1_eq, full_eq_halves (V' main_arg0)]
  exact Idealize.SL.BI.sep_assoc'

end Cert.KernelIdeal.Hand

end
-- ==== Proof.Run.lean ====
/-
  The run of the kernel program at any float instance: region 0 (the row norms), the host transpose of the column of
  norms into a row, region 1 (the similarity tiles). The buffer contents at each boundary are a fold from the launch
  memory: a region changes only its output array, to what its write-backs leave; the host stretch writes only the
  transposed norms. Every weakly fair execution terminates, and the final memory holds every unscoped buffer at the
  last boundary's contents: the input as launched and the result array at what region 1's write-backs leave.
-/
import proofs.«101115_j23201413333423_1_alg».proof.Proof.Region0
import proofs.«101115_j23201413333423_1_alg».proof.Proof.Region1
import proofs.«101115_j23201413333423_1_alg».proof.Proof.Shared
import proofs.«101115_j23201413333423_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry contents. -/
abbrev W0 : Dev nD → Valuation τ sig (Elt F) := fun c b => m (c, b)
/-- The same read at the TensorCore's references. -/
abbrev E0 : (c : Dev nD) → (b : Ref sig .tc) → Buf (Elt F) ((c : Thread nD τ).loc b) := fun c b => W0 m c b
/-- At region 0's exit: the array of norms at what the write-backs leave, every other buffer as entered. -/
def W1 (c : Dev nD) : Valuation τ sig (Elt F) :=
  Function.update (W0 m c) (Proc.devRef .tc main_v0) ((dat0 (E0 m) c).arrAt 1 cfg0.N)
abbrev X1 : (c : Dev nD) → (b : Ref sig .tc) → Buf (Elt F) ((c : Thread nD τ).loc b) := fun c b => W1 m c b
/-- After the host transpose: region 1's entry contents. -/
abbrev W2 : Dev nD → Valuation τ sig (Elt F) := fun c => StableHlo.after hostOps1 (W1 m c)
abbrev E1 : (c : Dev nD) → (b : Ref sig .tc) → Buf (Elt F) ((c : Thread nD τ).loc b) := fun c b => W2 m c b
/-- At region 1's exit: the result array at what the write-backs leave, every other buffer as entered. -/
def W3 (c : Dev nD) : Valuation τ sig (Elt F) :=
  Function.update (W2 m c) (Proc.devRef .tc main_v2) ((dat1 (E1 m) c).arrAt 4 cfg1.N)
abbrev X3 : (c : Dev nD) → (b : Ref sig .tc) → Buf (Elt F) ((c : Thread nD τ).loc b) := fun c b => W3 m c b

theorem W1_main_v0 (c : Dev nD) : W1 m c (Proc.devRef .tc main_v0) = (dat0 (E0 m) c).arrAt 1 cfg0.N := by
  unfold W1; exact Function.update_self ..
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb) ..
theorem W3_main_v2 (c : Dev nD) : W3 m c (Proc.devRef .tc main_v2) = (dat1 (E1 m) c).arrAt 4 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..
/-- The host stretch writes only the row of norms. -/
theorem W2_of_ne (c : Dev nD) (b : Ref sig .tc) (hb : b ∉ hostOps1_W) : W2 m c (Proc.devRef .tc b) = W1 m c (Proc.devRef .tc b) :=
  StableHlo.after_of_writes_sub hostOps1 _ hostOps1_writes hb

/-- The input array reaches the end as launched. -/
theorem W3_main_arg0 (c : Dev nD) : W3 m c (Proc.devRef .tc main_arg0) = m ((c : Thread nD τ).loc main_arg0) :=
  (W3_of_ne m c main_arg0 (by decide)).trans <| (W2_of_ne m c main_arg0 (by decide)).trans <| (W1_of_ne m c main_arg0 (by decide)).trans rfl
/-- Region 1 finds the input array as launched and the column of norms as region 0 left it. -/
theorem E1_main_arg0 (c : Dev nD) : E1 m c main_arg0 = m ((c : Thread nD τ).loc main_arg0) :=
  (W2_of_ne m c main_arg0 (by decide)).trans <| (W1_of_ne m c main_arg0 (by decide)).trans rfl
theorem E1_main_v0 (c : Dev nD) : E1 m c main_v0 = (dat0 (E0 m) c).arrAt 1 cfg0.N :=
  (W2_of_ne m c main_v0 (by decide)).trans (W1_main_v0 m c)

/-- At region 0's exit each of its arrays holds what the pipeline leaves, and every other buffer what it held at entry. -/
theorem hF0 (c : Dev nD) (w : Fin cfg0.W) : (dat0 (E0 m) c).arrAt w cfg0.N = X1 m c (Pipeline.arrRef spec0 w) :=
  match w with
  | ⟨0, _⟩ => ((dat0 (E0 m) c).arrAt_in 0 rfl _).trans ((A_eq0 (E0 m) c 0).trans (W1_of_ne m c main_arg0 (by decide)).symm)
  | ⟨1, _⟩ => (W1_main_v0 m c).symm
theorem hrest0 (c : Dev nD) : ∀ b, b ∉ Finset.univ.image (Pipeline.arrRef spec0) → X1 m c b = E0 m c b :=
  fun b hb => W1_of_ne m c b fun e => hb (Finset.mem_image.mpr ⟨1, Finset.mem_univ _, e.symm⟩)
/-- The same at region 1's exit. -/
theorem hF1 (c : Dev nD) (w : Fin cfg1.W) : (dat1 (E1 m) c).arrAt w cfg1.N = X3 m c (Pipeline.arrRef spec1 w) :=
  match w with
  | ⟨0, _⟩ => ((dat1 (E1 m) c).arrAt_in 0 rfl _).trans ((A_eq1 (E1 m) c 0).trans (W3_of_ne m c main_arg0 (by decide)).symm)
  | ⟨1, _⟩ => ((dat1 (E1 m) c).arrAt_in 1 rfl _).trans ((A_eq1 (E1 m) c 1).trans (W3_of_ne m c main_arg0 (by decide)).symm)
  | ⟨2, _⟩ => ((dat1 (E1 m) c).arrAt_in 2 rfl _).trans ((A_eq1 (E1 m) c 2).trans (W3_of_ne m c main_v0 (by decide)).symm)
  | ⟨3, _⟩ => ((dat1 (E1 m) c).arrAt_in 3 rfl _).trans ((A_eq1 (E1 m) c 3).trans (W3_of_ne m c main_v1 (by decide)).symm)
  | ⟨4, _⟩ => (W3_main_v2 m c).symm
theorem hrest1 (c : Dev nD) : ∀ b, b ∉ Finset.univ.image (Pipeline.arrRef spec1) → X3 m c b = E1 m c b :=
  fun b hb => W3_of_ne m c b fun e => hb (Finset.mem_image.mpr ⟨4, Finset.mem_univ _, e.symm⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its two windows on
    the input array take that array at the two halves of the full share and give them back joined. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := arrays1_of_unscopedBufs (pdats m 1 c) rfl rfl rfl rfl (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (pdats m 1 c) rfl rfl rfl rfl (E1 m c) (X3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 3 segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_main_arg0 m c)) (run_all m ρ)

/-- The run with the result array named: it ends at what region 1's write-backs leave, the input as launched. -/
theorem run_value : θ_run defs (onTc (τ := τ) (main (F := F))) ⟨m, fun _ => 0, ρ⟩ (fun r => ∀ c : Dev nD,
      r.2.mem ((c.tc : Thread nD τ).loc main_v2) = (dat1 (E1 m) c).arrAt 4 cfg1.N
      ∧ r.2.mem ((c.tc : Thread nD τ).loc main_arg0) = m ((c.tc : Thread nD τ).loc main_arg0)) :=
  (θ_run defs _ _).mono (fun r h c => ⟨(h c _ (mem_uc main_v2 (by decide))).trans (W3_main_v2 m c),
    (h c _ (mem_uc main_arg0 (by decide))).trans (W3_main_arg0 m c)⟩) (run_all m ρ)

end Cert.KernelIdeal.Hand

end
-- ==== Proof.Spec.lean ====
/-
  The specification both programs meet at the ideal instance: for an input `x` of shape [8, 2048, 512] over the
  extended reals, the clamped cosine-similarity matrix of each batch,

      G x (b, s, t) = max ( (∑ d, x (b, s, d) · x (b, t, d)) / (‖x (b, s, ·)‖ · ‖x (b, t, ·)‖) ) ε,
      ‖x (b, s, ·)‖ = √ (∑ d, x (b, s, d) · x (b, s, d)),

  with the quotient and the square root the ideal instance's total ones and `ε` the value of one binary32 word.
  Nothing here needs the inputs finite: both programs are this same expression, term by term.
-/
import Idealize.ShloMosaic.PureOps.Ideal
import Idealize.ShloMosaic.PureOps.Ideal.Laws
import Idealize.ShloMosaic.Lib.ValueIdx

noncomputable section

open scoped BigOperators

namespace Cert.CosSim

open Idealize.ShloMosaic Idealize.ShloMosaic.ValueIdx

/-- The input's shape, the column of norms', the row of norms' and the result's. -/
abbrev SX : Shape := ⟨3, ![8, 2048, 512]⟩
abbrev SC : Shape := ⟨3, ![8, 2048, 1]⟩
abbrev SR : Shape := ⟨3, ![8, 1, 2048]⟩
abbrev SO : Shape := ⟨3, ![8, 2048, 2048]⟩

/-- The clamp's lower bound: the value of the binary32 word both programs carry. -/
def eps : EReal := Ideal.ofBits .f32 0x358637BD#32

/-- The squared length of row `s` of batch `b`. -/
def rowSq (x : SX.Idx → EReal) (b : Fin 8) (s : Fin 2048) : EReal := ∑ d : Fin 512, x (ix3 b s d) * x (ix3 b s d)

/-- Its length. -/
def nrm (x : SX.Idx → EReal) (b : Fin 8) (s : Fin 2048) : EReal := Ideal.sqrt (rowSq x b s)

/-- The inner product of rows `s` and `t` of batch `b`. -/
def dots (x : SX.Idx → EReal) (b : Fin 8) (s t : Fin 2048) : EReal := ∑ d : Fin 512, x (ix3 b s d) * x (ix3 b t d)

/-- One entry of the result from the inner product and the two lengths. -/
def entry (p n₁ n₂ : EReal) : EReal := max (Ideal.div p (n₁ * n₂)) eps

/-- The column of row norms, as an array of shape [8, 2048, 1]. -/
def normCol (x : SX.Idx → EReal) : SC.Idx → EReal := fun i => nrm x (i 0) (i 1)

/-- The same norms laid out as a row, shape [8, 1, 2048]. -/
def normRow (x : SX.Idx → EReal) : SR.Idx → EReal := fun i => nrm x (i 0) (i 2)

/-- The similarity matrix from the input and ANY column and row of norms: what the second kernel computes of its
    three operand arrays. -/
def simOf (x : SX.Idx → EReal) (nc : SC.Idx → EReal) (nr : SR.Idx → EReal) : SO.Idx → EReal :=
  fun j => entry (dots x (j 0) (j 1) (j 2)) (nc (ix3 (j 0) (j 1) (0 : Fin 1))) (nr (ix3 (j 0) (0 : Fin 1) (j 2)))

/-- The specification. -/
def G (x : SX.Idx → EReal) : SO.Idx → EReal :=
  fun j => entry (dots x (j 0) (j 1) (j 2)) (nrm x (j 0) (j 1)) (nrm x (j 0) (j 2))

/-- With the true norms in both places the similarity matrix is the specification. -/
theorem simOf_norms (x : SX.Idx → EReal) : simOf x (normCol x) (normRow x) = G x := rfl

end Cert.CosSim

end
-- ==== Proof.Pay0.lean ====
/-
  The row-norm kernel's stored value at an index, at the ideal instance: entry (0, s, 0) of the [1, 2048, 1] column is
  the square root of the sum over the 512 lanes of the squares of row `s` of the loaded [1, 2048, 512] block.
-/
import proofs.«101115_j23201413333423_1_alg».proof.Proof.Gen.KernelIdeal.Skeleton
import proofs.«101115_j23201413333423_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

/-- A vector of length `a` cast to an `[a, 1]` column reads, at `(i, u)`, the operand at `i`, whatever the unit
coordinate `u`: the two row-major positions are `i` and `i * 1 + u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index the lane reduction inserts lane `d` into row `s` at is `(s, d)`. -/
private theorem lift_row (h : S2048x512.Reduces [1] S2048) (s : Fin 2048) (d : Fin 512) :
    h.lift (ix1 s) d = ix2 s d :=
  funext fun a => Fin.ext (by match a with | ⟨0, _⟩ => rfl | ⟨1, _⟩ => rfl)

theorem pay0_apply (x0 : Vec Ideal S1x2048x512 .f32) (s : Fin 2048) :
    k0_pay1 (F := Ideal) x0 (ix3 (0 : Fin 1) s (0 : Fin 1))
      = Ideal.sqrt (∑ d : Fin 512, x0 (ix3 (0 : Fin 1) s d) * x0 (ix3 (0 : Fin 1) s d)) := by
  unfold k0_pay1
  -- the outer cast adds a leading unit axis: entry (0, s, 0) is entry (s, 0) of the column of square roots
  refine (shapeCast_ab_1ab_apply _ _ (0 : Fin 1) s (0 : Fin 1)).trans ?_
  -- the square root is taken entry by entry
  refine congrArg Ideal.sqrt ?_
  -- the column's entry (s, 0) is entry s of the vector of row sums
  refine (shapeCast_a_a1_apply _ _ s (0 : Fin 1)).trans ?_
  -- the row sum is the sum over the 512 lanes
  refine (Ideal.multiReduction_add_single _ _ _ _ _ _).trans ?_
  refine Finset.sum_congr rfl fun (d : Fin 512) _ => ?_
  rw [lift_row reduces_S2048x512_S2048 s d]
  -- the square is taken entry by entry, and the inner cast drops the leading unit axis
  show shapeCast S2048x512 x0 _ (ix2 s d) * shapeCast S2048x512 x0 _ (ix2 s d) = _
  rw [shapeCast_1ab_ab_apply]

end Cert.KernelIdeal.Hand

end
-- ==== Proof.Val0.lean ====
/-
  What region 0 leaves in the array of norms, at the ideal instance: the grid's 8 points write the 8 batch rows'
  [1, 2048, 1] columns, which tile the [8, 2048, 1] array, so after the last point the array holds at (b, s, 0) the
  length of row `s` of batch `b` of the input array as the region found it.
-/
import proofs.«101115_j23201413333423_1_alg».proof.Proof.Region0
import proofs.«101115_j23201413333423_1_alg».proof.Proof.Pay0
import proofs.«101115_j23201413333423_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

variable (V : (c : Dev nD) → (b : Ref sig .tc) → Buf (Elt Ideal) ((c : Thread nD τ).loc b))

/-- The zero offset vector of a rank-3 rectangle. -/
private theorem hz3 : (![0, 0, 0] : Fin 3 → Nat) = fun _ => 0 := funext fun a => by fin_cases a <;> rfl

/-- Both windows' block index at grid point `t` is `(t, 0, 0)`: one batch row per point. -/
private theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The stored column at any index `y` of the [1, 2048, 1] block: the length of row `y 1` of the loaded block. -/
private theorem col_apply (x0 : Vec Ideal S1x2048x512 .f32) (y : S1x2048x1.Idx) :
    k0_pay1 (F := Ideal) x0 y
      = Ideal.sqrt (∑ d : Fin 512, x0 (ix3 (0 : Fin 1) (y 1) d) * x0 (ix3 (0 : Fin 1) (y 1) d)) := by
  have hy : y = ix3 (0 : Fin 1) (y 1) (0 : Fin 1) := by
    funext a
    apply Fin.ext
    match a with
    | ⟨0, _⟩ => exact Nat.lt_one_iff.mp (y 0).isLt
    | ⟨1, _⟩ => rfl
    | ⟨2, _⟩ => exact Nat.lt_one_iff.mp (y 2).isLt
  rw [hy]
  exact pay0_apply x0 (y 1)

/-- Entry `x` of the input block at point `t` is entry `(t + x 0, x 1, x 2)` of the input array. -/
private theorem iblk0_apply (c : Dev nD) (t : Fin cfg0.N) (x : S1x2048x512.Idx) (k : S8x2048x512.Idx)
    (h0 : (k 0).val = t.val + (x 0).val) (h1 : (k 1).val = (x 1).val) (h2 : (k 2).val = (x 2).val) :
    (iblk0 (F := Ideal) V c 0 t : Vec Ideal S1x2048x512 .f32) x = (V c main_arg0 : S8x2048x512.Idx → EReal) k := by
  obtain ⟨e0, e1, e2, -, -, -⟩ := idx_facts t
  unfold iblk0
  rw [View.read_apply]
  show V c main_arg0 _ = V c main_arg0 _
  congr 1
  funext a
  apply Fin.ext
  match a with
  | ⟨0, _⟩ => show win0_0.index t (0 : Fin 3) * 1 + 1 * (x 0).val = (k 0).val; rw [e0, h0]; omega
  | ⟨1, _⟩ => show win0_0.index t (1 : Fin 3) * 2048 + 1 * (x 1).val = (k 1).val; rw [e1, h1]; omega
  | ⟨2, _⟩ => show win0_0.index t (2 : Fin 3) * 512 + 1 * (x 2).val = (k 2).val; rw [e2, h2]; omega

/-- What point `t` writes back is block `t` of the column of row norms of the input array. -/
private theorem flushed_eq (c : Dev nD) (t : Fin cfg0.N) :
    (dat0 (F := Ideal) V c).flushed 1 t = ((cfg0.win 1).blk t).view.read (Elt Ideal) (Cert.CosSim.normCol (V c main_arg0)) := by
  show (cfg0.win 1).cut (grid0.coords t) ((dat0 V c).after 1 t) = _
  rw [after0_1]
  unfold out0_1
  rw [View.canon_unit_zero hz3]
  simp only [View.ld_unit_zero (S := S1x2048x512) hz3]
  obtain ⟨-, -, -, e0, e1, e2⟩ := idx_facts t
  funext j
  show k0_pay1 (iblk0 V c 0 t) ((cfg0.win 1).xinj (grid0.coords t) j)
    = Cert.CosSim.normCol (V c main_arg0) (((cfg0.win 1).blk t).view.emb j)
  rw [col_apply]
  show _ = Ideal.sqrt (∑ d : Fin 512, _ * _)
  refine congrArg Ideal.sqrt (Finset.sum_congr rfl fun d _ => ?_)
  have hj0 : (j 0).val = 0 := Nat.lt_one_iff.mp (j 0).isLt
  -- where the block's entry sits in the array: batch row `t`, the same sequence row
  have hk0 : ((((cfg0.win 1).blk t).view.emb j) 0).val = t.val + 0 := by
    show win0_1.index t (0 : Fin 3) * 1 + 1 * (j 0).val = t.val + 0
    rw [e0, hj0]; omega
  have hk1 : ((((cfg0.win 1).blk t).view.emb j) 1).val = (j 1).val := by
    show win0_1.index t (1 : Fin 3) * 2048 + 1 * (j 1).val = (j 1).val
    rw [e1]; omega
  refine congrArg₂ (· * ·) ?_ ?_ <;> exact iblk0_apply V c t _ _ hk0 hk1 rfl

/-- An index of the [8, 2048, 1] array is in point `t`'s block iff each coordinate is in the block's range on its axis. -/
private theorem mem_blk (t : Fin cfg0.N) (i : S8x2048x1.Idx) :
    i ∈ ((cfg0.win 1).blk t).view.set ↔ ∀ a : Fin 3, win0_1.index t a * S1x2048x1.size a ≤ (i a).val ∧ (i a).val < win0_1.index t a * S1x2048x1.size a + S1x2048x1.size a := by
  show i ∈ ((View.whole main_v0).slice (win0_1.rect t)).set ↔ _
  rw [View.set_slice_whole, Rect.mem_set_unit]
  exact Iff.rfl

/-- Every index of the array is in the block of the point its batch coordinate names. -/
private theorem covered (i : S8x2048x1.Idx) : ∃ t : Fin cfg0.N, (cfg0.win 1).flush t = true ∧ i ∈ ((cfg0.win 1).blk t).view.set := by
  have hi0 : (i 0).val < 8 := (i 0).isLt
  have hi1 : (i 1).val < 2048 := (i 1).isLt
  have hi2 : (i 2).val < 1 := (i 2).isLt
  refine ⟨⟨(i 0).val, hi0⟩, flush0_1 _, ?_⟩
  rw [mem_blk]
  obtain ⟨-, -, -, e0, e1, e2⟩ := idx_facts ⟨(i 0).val, hi0⟩
  intro a
  match a with
  | ⟨0, _⟩ => show win0_1.index _ (0 : Fin 3) * 1 ≤ (i 0).val ∧ (i 0).val < win0_1.index _ (0 : Fin 3) * 1 + 1; rw [e0]; show (i 0).val * 1 ≤ (i 0).val ∧ (i 0).val < (i 0).val * 1 + 1; omega
  | ⟨1, _⟩ => show win0_1.index _ (1 : Fin 3) * 2048 ≤ (i 1).val ∧ (i 1).val < win0_1.index _ (1 : Fin 3) * 2048 + 2048; rw [e1]; omega
  | ⟨2, _⟩ => show win0_1.index _ (2 : Fin 3) * 1 ≤ (i 2).val ∧ (i 2).val < win0_1.index _ (2 : Fin 3) * 1 + 1; rw [e2]; omega

/-- The array of norms after the last point: the blocks written back tile it, each holding its rows' lengths. -/
theorem norms_final (c : Dev nD) :
    ((dat0 (F := Ideal) V c).arrAt 1 cfg0.N : S8x2048x1.Idx → EReal) = Cert.CosSim.normCol (V c main_arg0) :=
  (dat0 (F := Ideal) V c).arrAt_eq_of_cover 1 (Cert.CosSim.normCol (V c main_arg0)) (fun t _ => flushed_eq V c t) covered

end Cert.KernelIdeal.Hand

end
-- ==== Proof.Pay1.lean ====
/-
  The similarity kernel's stored value at an index, at the ideal instance: entry (0, p, q) of the [1, 512, 512] tile is
  the inner product over the 512 lanes of row `p` of the first loaded tile with row `q` of the second (the second tile
  enters the matrix product transposed; the change to the 16-bit format is the identity at this instance), divided by
  the product of entry `p` of the loaded column and entry `q` of the loaded row, clamped from below.
-/
import proofs.«101115_j23201413333423_1_alg».proof.Proof.Gen.KernelIdeal.Skeleton
import proofs.«101115_j23201413333423_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

/-- An `[a, 1]` column broadcast to `[a, b]` reads, at `(p, c)`, the column's entry `(p, 0)`: the row coordinate is
kept, the unit axis reads its one position. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The operand indices of the matrix product `[512, 512] × [512, 512]` that contracts the left operand's axis 1 with
the right operand's axis 0: at output index `i` and contraction position `k` the left operand is read at `(i 0, k)` and
the right operand at `(k, i 1)`, axis by axis. -/

private theorem lhs_dot_0 (i : S512x512.Idx) (k : dot_S512x512_S512x512_S512x512_1_0_0_1_n_n.contr.Idx) :
    (dot_S512x512_S512x512_S512x512_1_0_0_1_n_n.lhsIdx i k 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
private theorem lhs_dot_1 (i : S512x512.Idx) (k : dot_S512x512_S512x512_S512x512_1_0_0_1_n_n.contr.Idx) :
    (dot_S512x512_S512x512_S512x512_1_0_0_1_n_n.lhsIdx i k 1).val = (k ⟨0, by decide⟩).val :=
  dot_S512x512_S512x512_S512x512_1_0_0_1_n_n.lhsIdx_val_of_single rfl i k
private theorem rhs_dot_0 (i : S512x512.Idx) (k : dot_S512x512_S512x512_S512x512_1_0_0_1_n_n.contr.Idx) :
    (dot_S512x512_S512x512_S512x512_1_0_0_1_n_n.rhsIdx i k 0).val = (k ⟨0, by decide⟩).val :=
  dot_S512x512_S512x512_S512x512_1_0_0_1_n_n.rhsIdx_val_of_single rfl i k
private theorem rhs_dot_1 (i : S512x512.Idx) (k : dot_S512x512_S512x512_S512x512_1_0_0_1_n_n.contr.Idx) :
    (dot_S512x512_S512x512_S512x512_1_0_0_1_n_n.rhsIdx i k 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The matrix product into the zero tile, read at `(p, q)`: the sum over the 512 contraction positions `d` of the left
operand's entry `(p, d)` times the right operand's entry `(d, q)`. -/
private theorem matmul_zero_ix2_apply {φ₁ φ₂ : FTy} (A : FVec Ideal S512x512 φ₁) (B : FVec Ideal S512x512 φ₂) (p q : Fin 512) :
    matmul (F := Ideal) dot_S512x512_S512x512_S512x512_1_0_0_1_n_n none A B (constant (F := Ideal) S512x512 .f32 0x00000000#32) (ix2 p q)
      = ∑ d : Fin 512, A (ix2 p d) * B (ix2 d q) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

theorem pay1_apply (x0 x1 : Vec Ideal S1x512x512 .f32) (x2 : Vec Ideal S1x512x1 .f32) (x3 : Vec Ideal S1x1x512 .f32) (p q : Fin 512) :
    k1_pay1 (F := Ideal) x0 x1 x2 x3 (ix3 (0 : Fin 1) p q)
      = Cert.CosSim.entry (∑ d : Fin 512, x0 (ix3 (0 : Fin 1) p d) * x1 (ix3 (0 : Fin 1) q d))
          (x2 (ix3 (0 : Fin 1) p (0 : Fin 1))) (x3 (ix3 (0 : Fin 1) (0 : Fin 1) q)) := by
  unfold k1_pay1
  -- the outer cast adds a leading unit axis: entry (0, p, q) is entry (p, q) of the clamped quotient
  refine (shapeCast_ab_1ab_apply _ _ (0 : Fin 1) p q).trans ?_
  -- the clamp, the quotient and the product of the two broadcasts are taken entry by entry
  rw [maximumf_apply, divf_apply, mulf_apply, broadcast_apply]
  unfold Cert.CosSim.entry Cert.CosSim.eps
  -- the matrix product into the zero tile is the sum over the lanes; the column reads its row's entry and the row its
  -- column's entry; each inner cast drops the leading unit axis
  rw [matmul_zero_ix2_apply, broadcastTo_a1_ab_apply, broadcastTo_1b_ab_apply, shapeCast_1ab_ab_apply, shapeCast_1ab_ab_apply]
  -- under the sum: the change of format is the identity, the transpose swaps the two coordinates, the casts drop the unit axis
  have hs : ∀ d : Fin 512,
      truncf (F := Ideal) .bf16 (shapeCast S512x512 x0 shapeCasts_S1x512x512_S512x512) bitsLt_bf16_f32 (ix2 p d)
        * transpose S512x512 [1, 0] (truncf (F := Ideal) .bf16 (shapeCast S512x512 x1 shapeCasts_S1x512x512_S512x512) bitsLt_bf16_f32)
            transposes_S512x512_p1_0_S512x512 (ix2 d q)
        = x0 (ix3 (0 : Fin 1) p d) * x1 (ix3 (0 : Fin 1) q d) := fun d => by
    rw [transpose_ix2_apply, truncf_apply, truncf_apply, shapeCast_1ab_ab_apply, shapeCast_1ab_ab_apply]
  rw [Finset.sum_congr rfl fun d _ => hs d]
  rfl

end Cert.KernelIdeal.Hand

end
-- ==== Proof.Val1.lean ====
/-
  What region 1 leaves in the result array, at the ideal instance: the grid's 8 · 4 · 4 points write the
  [1, 512, 512] tiles (b, qi, kj), which tile the [8, 2048, 2048] array, so after the last point the array holds at
  (b, s, t) the clamped quotient of the inner product of rows `s` and `t` of batch `b` of the input array by the product
  of entry (b, s, 0) of the column array and entry (b, 0, t) of the row array, all as the region found them.
-/
import proofs.«101115_j23201413333423_1_alg».proof.Proof.Region1
import proofs.«101115_j23201413333423_1_alg».proof.Proof.Pay1
import proofs.«101115_j23201413333423_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

/-- A whole block starts at the origin of its buffer. -/
theorem origin3 : (![0, 0, 0] : Fin 3 → Nat) = fun _ => 0 := funext fun a => by fin_cases a <;> rfl

/-- The block indices over the grid: point `t` is (batch, row tile, column tile) = (t / 16, t / 4 mod 4, t mod 4); the
    output tile sits at all three, the row tile of the input and the column of norms at (batch, row tile, 0), the
    column tile of the input at (batch, column tile, 0), the row of norms at (batch, 0, column tile). -/
theorem tile_index : ∀ t : Fin cfg1.N,
    win1_4.index t (0 : Fin 3) = t.val / 16 ∧ win1_4.index t (1 : Fin 3) = t.val / 4 % 4 ∧ win1_4.index t (2 : Fin 3) = t.val % 4
    ∧ win1_0.index t (0 : Fin 3) = win1_4.index t (0 : Fin 3) ∧ win1_0.index t (1 : Fin 3) = win1_4.index t (1 : Fin 3) ∧ win1_0.index t (2 : Fin 3) = 0
    ∧ win1_1.index t (0 : Fin 3) = win1_4.index t (0 : Fin 3) ∧ win1_1.index t (1 : Fin 3) = win1_4.index t (2 : Fin 3) ∧ win1_1.index t (2 : Fin 3) = 0
    ∧ win1_2.index t (0 : Fin 3) = win1_4.index t (0 : Fin 3) ∧ win1_2.index t (1 : Fin 3) = win1_4.index t (1 : Fin 3) ∧ win1_2.index t (2 : Fin 3) = 0
    ∧ win1_3.index t (0 : Fin 3) = win1_4.index t (0 : Fin 3) ∧ win1_3.index t (1 : Fin 3) = 0 ∧ win1_3.index t (2 : Fin 3) = win1_4.index t (2 : Fin 3) :=
  (by decide +kernel : ∀ t : Fin grid1.N, _)

/-- One entry of a stored tile, over coordinates: when row `p` of the first loaded tile is row `s` of batch `b` of `X`,
    row `q` of the second is row `t` of that batch, and the loaded column and row entries are those of `NC` and `NR` at
    (b, s, 0) and (b, 0, t), the tile's entry (0, p, q) is the similarity matrix's entry (b, s, t). -/
theorem tile_entry (X : Cert.CosSim.SX.Idx → EReal) (NC : Cert.CosSim.SC.Idx → EReal) (NR : Cert.CosSim.SR.Idx → EReal)
    (x0 x1 : Vec Ideal S1x512x512 .f32) (x2 : Vec Ideal S1x512x1 .f32) (x3 : Vec Ideal S1x1x512 .f32)
    (p q : Fin 512) (b : Fin 8) (s t : Fin 2048)
    (h0 : ∀ d : Fin 512, x0 (ix3 (0 : Fin 1) p d) = X (ix3 b s d))
    (h1 : ∀ d : Fin 512, x1 (ix3 (0 : Fin 1) q d) = X (ix3 b t d))
    (h2 : x2 (ix3 (0 : Fin 1) p (0 : Fin 1)) = NC (ix3 b s (0 : Fin 1)))
    (h3 : x3 (ix3 (0 : Fin 1) (0 : Fin 1) q) = NR (ix3 b (0 : Fin 1) t)) :
    k1_pay1 (F := Ideal) x0 x1 x2 x3 (ix3 (0 : Fin 1) p q) = Cert.CosSim.simOf X NC NR (ix3 b s t) := by
  rw [pay1_apply]
  show _ = Cert.CosSim.entry (∑ d : Fin 512, X (ix3 b s d) * X (ix3 b t d)) (NC (ix3 b s (0 : Fin 1))) (NR (ix3 b (0 : Fin 1) t))
  rw [← h2, ← h3]
  exact congrArg (fun z => Cert.CosSim.entry z _ _) (Finset.sum_congr rfl fun d _ => by rw [h0, h1])

/-- The same at an index `y` of the tile and an index `j` of the array. -/
theorem tile_entry_at (X : Cert.CosSim.SX.Idx → EReal) (NC : Cert.CosSim.SC.Idx → EReal) (NR : Cert.CosSim.SR.Idx → EReal)
    (x0 x1 : Vec Ideal S1x512x512 .f32) (x2 : Vec Ideal S1x512x1 .f32) (x3 : Vec Ideal S1x1x512 .f32)
    (y : S1x512x512.Idx) (j : S8x2048x2048.Idx)
    (h0 : ∀ d : Fin 512, x0 (ix3 (0 : Fin 1) (y 1 : Fin 512) d) = X (ix3 (j 0 : Fin 8) (j 1 : Fin 2048) d))
    (h1 : ∀ d : Fin 512, x1 (ix3 (0 : Fin 1) (y 2 : Fin 512) d) = X (ix3 (j 0 : Fin 8) (j 2 : Fin 2048) d))
    (h2 : x2 (ix3 (0 : Fin 1) (y 1 : Fin 512) (0 : Fin 1)) = NC (ix3 (j 0 : Fin 8) (j 1 : Fin 2048) (0 : Fin 1)))
    (h3 : x3 (ix3 (0 : Fin 1) (0 : Fin 1) (y 2 : Fin 512)) = NR (ix3 (j 0 : Fin 8) (0 : Fin 1) (j 2 : Fin 2048))) :
    k1_pay1 (F := Ideal) x0 x1 x2 x3 y = Cert.CosSim.simOf X NC NR j := by
  have ey : y = ix3 (0 : Fin 1) (y 1 : Fin 512) (y 2 : Fin 512) := by
    funext a
    match a with
    | ⟨0, _⟩ => exact Subsingleton.elim (α := Fin 1) _ _
    | ⟨1, _⟩ => rfl
    | ⟨2, _⟩ => rfl
  have ej : j = ix3 (j 0 : Fin 8) (j 1 : Fin 2048) (j 2 : Fin 2048) := eq_ix3 j
  calc k1_pay1 (F := Ideal) x0 x1 x2 x3 y
      = k1_pay1 (F := Ideal) x0 x1 x2 x3 (ix3 (0 : Fin 1) (y 1 : Fin 512) (y 2 : Fin 512)) := congrArg (k1_pay1 (F := Ideal) x0 x1 x2 x3) ey
    _ = Cert.CosSim.simOf X NC NR (ix3 (j 0 : Fin 8) (j 1 : Fin 2048) (j 2 : Fin 2048)) :=
        tile_entry X NC NR x0 x1 x2 x3 (y 1) (y 2) (j 0) (j 1) (j 2) h0 h1 h2 h3
    _ = Cert.CosSim.simOf X NC NR j := congrArg (Cert.CosSim.simOf X NC NR) ej.symm

variable (V : (c : Dev nD) → (b : Ref sig .tc) → Buf (Elt Ideal) ((c : Thread nD τ).loc b))

/-- What point `t` writes back is its tile of the similarity matrix of the three operand arrays: each of the four
    loaded blocks is read where the output tile's rows and columns say. -/
theorem tile_flushed (c : Dev nD) (t : Fin cfg1.N) :
    (dat1 (F := Ideal) V c).flushed 4 t
      = ((cfg1.win 4).blk t).view.read (Elt Ideal) (Cert.CosSim.simOf (V c main_arg0) (V c main_v0) (V c main_v1)) := by
  show (cfg1.win 4).cut (grid1.coords t) ((dat1 (F := Ideal) V c).after 4 t) = _
  rw [after1_4]
  unfold out1_4
  rw [View.canon_unit_zero origin3]
  simp only [View.ld_unit_zero (S := S1x512x512) origin3, View.ld_unit_zero (S := S1x512x1) origin3,
    View.ld_unit_zero (S := S1x1x512) origin3]
  obtain ⟨e40, e41, e42, e00, e01, e02, e10, e11, e12, e20, e21, e22, e30, e31, e32⟩ := tile_index t
  funext y
  have hy0 : (y 0).val < 1 := (y 0).isLt
  show k1_pay1 (F := Ideal) (iblk1 V c 0 t) (iblk1 V c 1 t) (iblk1 V c 2 t) (iblk1 V c 3 t) y
    = Cert.CosSim.simOf (V c main_arg0) (V c main_v0) (V c main_v1) (((cfg1.win 4).blk t).view.emb y)
  refine tile_entry_at _ _ _ _ _ _ _ y _ (fun d => ?_) (fun d => ?_) ?_ ?_
  · show V c main_arg0 (((cfg1.win 0).blk t).view.emb (ix3 (0 : Fin 1) (y 1 : Fin 512) d)) = V c main_arg0 _
    refine congrArg _ (funext fun a => Fin.ext ?_)
    match a with
    | ⟨0, _⟩ => show win1_0.index t (0 : Fin 3) * 1 + 1 * 0 = win1_4.index t (0 : Fin 3) * 1 + 1 * (y 0).val; omega
    | ⟨1, _⟩ => show win1_0.index t (1 : Fin 3) * 512 + 1 * (y 1).val = win1_4.index t (1 : Fin 3) * 512 + 1 * (y 1).val; omega
    | ⟨2, _⟩ => show win1_0.index t (2 : Fin 3) * 512 + 1 * d.val = d.val; omega
  · show V c main_arg0 (((cfg1.win 1).blk t).view.emb (ix3 (0 : Fin 1) (y 2 : Fin 512) d)) = V c main_arg0 _
    refine congrArg _ (funext fun a => Fin.ext ?_)
    match a with
    | ⟨0, _⟩ => show win1_1.index t (0 : Fin 3) * 1 + 1 * 0 = win1_4.index t (0 : Fin 3) * 1 + 1 * (y 0).val; omega
    | ⟨1, _⟩ => show win1_1.index t (1 : Fin 3) * 512 + 1 * (y 2).val = win1_4.index t (2 : Fin 3) * 512 + 1 * (y 2).val; omega
    | ⟨2, _⟩ => show win1_1.index t (2 : Fin 3) * 512 + 1 * d.val = d.val; omega
  · show V c main_v0 (((cfg1.win 2).blk t).view.emb (ix3 (0 : Fin 1) (y 1 : Fin 512) (0 : Fin 1))) = V c main_v0 _
    refine congrArg _ (funext fun a => Fin.ext ?_)
    match a with
    | ⟨0, _⟩ => show win1_2.index t (0 : Fin 3) * 1 + 1 * 0 = win1_4.index t (0 : Fin 3) * 1 + 1 * (y 0).val; omega
    | ⟨1, _⟩ => show win1_2.index t (1 : Fin 3) * 512 + 1 * (y 1).val = win1_4.index t (1 : Fin 3) * 512 + 1 * (y 1).val; omega
    | ⟨2, _⟩ => show win1_2.index t (2 : Fin 3) * 1 + 1 * 0 = 0; omega
  · show V c main_v1 (((cfg1.win 3).blk t).view.emb (ix3 (0 : Fin 1) (0 : Fin 1) (y 2 : Fin 512))) = V c main_v1 _
    refine congrArg _ (funext fun a => Fin.ext ?_)
    match a with
    | ⟨0, _⟩ => show win1_3.index t (0 : Fin 3) * 1 + 1 * 0 = win1_4.index t (0 : Fin 3) * 1 + 1 * (y 0).val; omega
    | ⟨1, _⟩ => show win1_3.index t (1 : Fin 3) * 1 + 1 * 0 = 0; omega
    | ⟨2, _⟩ => show win1_3.index t (2 : Fin 3) * 512 + 1 * (y 2).val = win1_4.index t (2 : Fin 3) * 512 + 1 * (y 2).val; omega

/-- An index of the result array is in point `t`'s tile iff each coordinate is in the tile's range on its axis. -/
theorem mem_tile (t : Fin cfg1.N) (j : S8x2048x2048.Idx) :
    j ∈ ((cfg1.win 4).blk t).view.set
      ↔ ∀ a : Fin 3, win1_4.index t a * S1x512x512.size a ≤ (j a).val ∧ (j a).val < win1_4.index t a * S1x512x512.size a + S1x512x512.size a := by
  show j ∈ ((View.whole main_v2).slice (win1_4.rect t)).set ↔ _
  rw [View.set_slice_whole, Rect.mem_set_unit]
  exact Iff.rfl

/-- The tiles cover the result array: (b, s, t) is in the tile of the point (b, s / 512, t / 512). -/
theorem tiles_cover (j : S8x2048x2048.Idx) :
    ∃ t : Fin cfg1.N, (cfg1.win 4).flush t = true ∧ j ∈ ((cfg1.win 4).blk t).view.set := by
  have hj0 : (j 0).val < 8 := (j 0).isLt
  have hj1 : (j 1).val < 2048 := (j 1).isLt
  have hj2 : (j 2).val < 2048 := (j 2).isLt
  obtain ⟨t, ht⟩ : ∃ t : Fin cfg1.N, t.val = 16 * (j 0).val + 4 * ((j 1).val / 512) + (j 2).val / 512 :=
    ⟨⟨16 * (j 0).val + 4 * ((j 1).val / 512) + (j 2).val / 512, by show _ < 128; omega⟩, rfl⟩
  obtain ⟨e40, e41, e42, -⟩ := tile_index t
  refine ⟨t, flush1_4 t, ?_⟩
  rw [mem_tile]
  intro a
  match a with
  | ⟨0, _⟩ => show win1_4.index t (0 : Fin 3) * 1 ≤ (j 0).val ∧ (j 0).val < win1_4.index t (0 : Fin 3) * 1 + 1; omega
  | ⟨1, _⟩ => show win1_4.index t (1 : Fin 3) * 512 ≤ (j 1).val ∧ (j 1).val < win1_4.index t (1 : Fin 3) * 512 + 512; omega
  | ⟨2, _⟩ => show win1_4.index t (2 : Fin 3) * 512 ≤ (j 2).val ∧ (j 2).val < win1_4.index t (2 : Fin 3) * 512 + 512; omega

theorem sim_final (c : Dev nD) :
    ((dat1 (F := Ideal) V c).arrAt 4 cfg1.N : S8x2048x2048.Idx → EReal)
      = Cert.CosSim.simOf (V c main_arg0) (V c main_v0) (V c main_v1) :=
  (dat1 (F := Ideal) V c).arrAt_eq_of_cover 4 _ (fun t _ => tile_flushed V c t) tiles_cover

end Cert.KernelIdeal.Hand

end
-- ==== Proof.NormRow.lean ====
/-
  Between its two regions the kernel program transposes the [8, 2048, 1] column of norms into an [8, 1, 2048] row
  (axes 1 and 2 exchanged). Read at an index the transposed column of norms is the row of norms: entry (b, 0, t) of
  the result is entry (b, t, 0) of the operand, the length of row `t` of batch `b`.
-/
import proofs.«101115_j23201413333423_1_alg».proof.Proof.Spec
import Idealize.ShloMosaic.Lib.Pipeline.Value
import Idealize.ShloMosaic.Lib.ValueIdx
import Idealize.ShloMosaic.Lib.ValueLayout

set_option maxRecDepth 16384

noncomputable section

namespace Cert.CosSim

open Idealize.ShloMosaic Idealize.ShloMosaic.ValueIdx

theorem transpose_normCol (x : SX.Idx → EReal) (h : SC.Transposes [0, 2, 1] SR) :
    transpose SR [0, 2, 1] (normCol x) h = normRow x := by
  funext j
  rw [transpose_apply [0, 2, 1] (normCol x) h j (ix3 (j 0) (j 2) (j 1))
    (fun b => by match b with | ⟨0, _⟩ => rfl | ⟨1, _⟩ => rfl | ⟨2, _⟩ => rfl)]
  rfl

end Cert.CosSim

end
-- ==== Proof.Glue.lean ====
/-
  The kernel program's result at the ideal instance is the specification of its input. Region 1 finds the input
  array as launched, the column of norms as region 0's write-backs left it — the true row lengths — and, from the
  host stretch between the regions, the transpose of that column, which is the row of the same lengths. So the
  similarity tiles it writes, computed from ANY column and row of norms, are the specification's.
-/
import proofs.«101115_j23201413333423_1_alg».proof.Proof.Run
import proofs.«101115_j23201413333423_1_alg».proof.Proof.Val0
import proofs.«101115_j23201413333423_1_alg».proof.Proof.Val1
import proofs.«101115_j23201413333423_1_alg».proof.Proof.NormRow
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

section AnyInstance

variable {F : FTy → Type} [FloatOps F]
variable (m : (ℓ : Loc nD τ sig) → Buf (Elt F) ℓ)

/-- Region 1 finds in the row array the transpose of the column array region 0 left. -/
theorem E1_main_v1 (c : Dev nD) :
    E1 m c main_v1 = transpose S8x1x2048 [0, 2, 1] (X1 m c main_v0) transposes_S8x2048x1_S8x1x2048_0_2_1 := by
  show StableHlo.after hostOps1 (W1 m c) (Proc.devRef .tc main_v1) = _
  after_results

end AnyInstance

variable (m : (ℓ : Loc nD τ sig) → Buf (Elt Ideal) ℓ)

/-- What region 1's write-backs leave in the result array is the specification of the launch input. -/
theorem kernel_value (c : Dev nD) :
    ((dat1 (F := Ideal) (E1 m) c).arrAt 4 cfg1.N : S8x2048x2048.Idx → EReal)
      = Cert.CosSim.G (m ((c : Thread nD τ).loc main_arg0)) := by
  rw [sim_final (E1 m) c, E1_main_v1 m c, E1_main_arg0 m c, E1_main_v0 m c]
  rw [show X1 m c main_v0 = (dat0 (E0 m) c).arrAt 1 cfg0.N from W1_main_v0 m c, norms_final (E0 m) c]
  rw [show E0 m c main_arg0 = m ((c : Thread nD τ).loc main_arg0) from rfl]
  rw [Cert.CosSim.transpose_normCol]
  exact Cert.CosSim.simOf_norms _

end Cert.KernelIdeal.Hand

end
-- ==== Proof.RefValue.lean ====
/-
  The reference's result, read index by index at the ideal instance, is the specification `G` of the argument: its
  norm is the square root of zero plus the sum of squares, its inner products the batched product's sums, its two
  broadcasts of the norms the column and the row of the outer product.
-/
import proofs.«101115_j23201413333423_1_alg».proof.Proof.Gen.ReferenceIdeal.Read
import proofs.«101115_j23201413333423_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- The left factor's index in the batched product, at the entry `(b, s, t)` and the contraction position `k`, is
    `(b, s, k)`. -/
theorem lidx_ix3 (b : Fin 8) (s t : Fin 2048) (k : Fin 512) :
    lidx_main_v1 (ix3 b s t) k = ix3 b s k :=
  funext fun a => Fin.ext (by match a with | ⟨0, _⟩ => rfl | ⟨1, _⟩ => rfl | ⟨2, _⟩ => rfl)

/-- The right factor's index there is `(b, t, k)`. -/
theorem ridx_ix3 (b : Fin 8) (s t : Fin 2048) (k : Fin 512) :
    ridx_main_v1 (ix3 b s t) k = ix3 b t k :=
  funext fun a => Fin.ext (by match a with | ⟨0, _⟩ => rfl | ⟨1, _⟩ => rfl | ⟨2, _⟩ => rfl)

/-- The column broadcast of the norms, followed back to the argument: the entry `(b, s, t)` reads row `s` of batch
    `b`, at position `k` of the sum of squares the element `(b, s, k)`. -/
theorem colIdx_ix3 (b : Fin 8) (s t : Fin 2048) (k : Fin 512) :
    idx_main_call0_v1 (idx_main_v2 (idx_main_v4 (ix3 b s t))) k = ix3 b s k :=
  funext fun a => Fin.ext (by match a with | ⟨0, _⟩ => rfl | ⟨1, _⟩ => rfl | ⟨2, _⟩ => rfl)

/-- The row broadcast likewise reads row `t` of batch `b`. -/
theorem rowIdx_ix3 (b : Fin 8) (s t : Fin 2048) (k : Fin 512) :
    idx_main_call0_v1 (idx_main_v3 (idx_main_v5 (ix3 b s t))) k = ix3 b t k :=
  funext fun a => Fin.ext (by match a with | ⟨0, _⟩ => rfl | ⟨1, _⟩ => rfl | ⟨2, _⟩ => rfl)

theorem ref_is_G (x0 : (⟨S8x2048x512, .f32⟩ : BufTy).Contents (Elt Ideal)) :
    val_main_v9 (F := Ideal) x0 = Cert.CosSim.G x0 := by
  funext i
  obtain ⟨b, s, t, rfl⟩ : ∃ (b : Fin 8) (s t : Fin 2048), i = ix3 b s t := ⟨i 0, i 1, i 2, eq_ix3 i⟩
  rw [val_main_v9_apply, val_main_v7_apply, val_main_v1_apply, val_main_v6_apply, val_main_v4_apply,
    val_main_v2_apply, val_main_v5_apply, val_main_v3_apply, val_main_v0_apply, val_main_v0_apply,
    val_main_call0_v1_apply, val_main_call0_v1_apply, val_main_v8_apply, val_main_cst_apply,
    val_main_call0_cst_apply]
  simp only [val_main_call0_v0_apply, lidx_ix3, ridx_ix3, colIdx_ix3, rowIdx_ix3, Ideal.maximumf_def,
    Ideal.hostDivf_def, Ideal.hostUnary_sqrt_def, Ideal.mulf_def, Ideal.ofBits_def, Ideal.ofBits_zero_f32, zero_add,
    Cert.CosSim.G, Cert.CosSim.entry, Cert.CosSim.dots, Cert.CosSim.nrm, Cert.CosSim.rowSq, Cert.CosSim.eps]

end Cert.ReferenceIdeal.RefValue

end
-- ==== Proof.lean ====
/-
  The certificate of the clamped cosine-similarity kernel against its reference, over the extended reals.

  Both programs compute, for an input x of shape [8, 2048, 512],
      out (b, s, t) = max ( (∑ d, x (b, s, d) · x (b, t, d)) / (‖x (b, s, ·)‖ · ‖x (b, t, ·)‖) ) ε,
  the kernel in two grids — the row lengths ‖x (b, s, ·)‖ = √(∑ d, x (b, s, d)²) first, one batch row per point,
  then the [512, 512] tiles of the quotient, each from a row tile and a column tile of x and the matching pieces of
  the column and the row of lengths — and the reference in whole-array operations. At the ideal instance the
  change to the 16-bit format before the tiles' matrix products is the identity, a tile's matrix product against
  the transposed tile is the batched product's entry, and the same binary32 word ε stands on both sides, so the
  two results are one expression term by term: no law of arithmetic is needed, and the inputs' finiteness is
  not used.

  The frames: the kernel's two programs run as region, host transpose, region, each region's pipeline handed
  its arrays out of the core's buffers and giving them back — the second region's two windows on the input
  array at the two halves of its share —, and the reference's frame is its generated run with the result dropped.
-/
import proofs.«101115_j23201413333423_1_alg».proof.Defs
import proofs.«101115_j23201413333423_1_alg».proof.Proof.Gen.Kernel
import proofs.«101115_j23201413333423_1_alg».proof.Proof.Gen.KernelIdeal
import proofs.«101115_j23201413333423_1_alg».proof.Proof.Gen.ReferenceIdeal
import proofs.«101115_j23201413333423_1_alg».proof.Proof.Gen.Pre_finite_inputs
import proofs.«101115_j23201413333423_1_alg».proof.Proof.Gen.ReferenceIdeal.Run
import proofs.«101115_j23201413333423_1_alg».proof.Proof.KernelBits.Run
import proofs.«101115_j23201413333423_1_alg».proof.Proof.Run
import proofs.«101115_j23201413333423_1_alg».proof.Proof.Glue
import proofs.«101115_j23201413333423_1_alg».proof.Proof.RefValue

noncomputable section

namespace Cert.Proof

open Idealize.ShloMosaic Idealize.ShloMosaic.TcCoe Idealize.SL.Sem

/-- The word-level kernel program runs and leaves its input unchanged. -/
theorem frame_kernel : Cert.frame_Kernel := fun m ρ _ => Cert.Kernel.Hand.frame m ρ

/-- So does the idealized one. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- From memories agreeing on the input both idealized programs end with the specification of that input. -/
theorem algebraic : Cert.algebraic_KernelIdeal_ReferenceIdeal := by
  intro m ρ m' ρ' _ hagree
  refine ⟨fun c => Cert.CosSim.G (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.Hand.kernel_value m c), (h c).2⟩)
      (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, Cert.ReferenceIdeal.RefValue.ref_is_G, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
